-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x128 : S_.BroadcastsInDim S1x128 (![] : Fin 0 → Fin S1x128.rank)
  reducesTo_S1x128_S_d0_1 : S1x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x16384 : S_.BroadcastsInDim S4096x16384 (![] : Fin 0 → Fin S4096x16384.rank)
  reducesTo_S4096x16384_S_d0_1 : S4096x16384.ReducesTo [0, 1] S_

variable [Facts]

def fn_part1 {F : FTy → Type} [FloatOps F] (main_arg4 : FVec F S4096x16384 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  main_v23

def fn {F : FTy → Type} [FloatOps F] (main_arg0 : FVec F S4096x256 .f32) (main_arg1 : FVec F S16384x256 .f32) (main_arg2 : FVec F S1x128 .f32) (main_arg3 : FVec F S4096x4096 .f32) (main_arg4 : FVec F S4096x16384 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩
abbrev S1024x2048 : Shape := ⟨2, ![1024, 2048]⟩
abbrev S1024x256 : Shape := ⟨2, ![1024, 256]⟩
abbrev S2048x256 : Shape := ⟨2, ![2048, 256]⟩

abbrev nBuf : Space → Nat
  | .hbm => 6
  | .vmem => 9
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S1x128, .f32⟩
  | .hbm, ⟨3, _⟩ => ⟨S4096x4096, .f32⟩
  | .hbm, ⟨4, _⟩ => ⟨S4096x16384, .f32⟩
  | .hbm, ⟨5, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  dot_S1024x2048_S1024x256_S2048x256_0_0_1_1_n_n_wf : DotDims.WF S1024x2048 S1024x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x16384.size a
  hwx0_0 : ∀ i : grid0.Coords, EltTy.bits .f32 = 32 ∨ (Rect.block (s := S4096x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)

variable [Facts₀]

def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf

abbrev win0_0 : Pipeline.Window sig grid0 :=
  Pipeline.Window.ofSpec (Memref.whole main_arg4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S1x128, .f32⟩
  | .hbm, ⟨3, _⟩ => ⟨S4096x4096, .f32⟩
  | .hbm, ⟨4, _⟩ => ⟨S4096x16384, .f32⟩
  | .hbm, ⟨5, _⟩ => ⟨S16384x256, .f32⟩
  | .hbm, ⟨6, _⟩ => ⟨S16384x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S4096x16384_S4096x256_S16384x256_0_0_1_1_n_n_wf : DotDims.WF S4096x16384 S4096x256 S16384x256 [0] [0] [1] [1] [] []

variable [Facts₀]

def dot_S4096x16384_S4096x256_S16384x256_0_0_1_1_n_n : DotDims S4096x16384 S4096x256 S16384x256 where
  lhsContracting := [0]
  rhsContracting := [0]
  lhsNonContracting := [1]
  rhsNonContracting := [1]
  lhsBatch := []
  rhsBatch := []
  wf := dot_S4096x16384_S4096x256_S16384x256_0_0_1_1_n_n_wf

class Facts : Prop extends Facts₀ where

variable [Facts]
-- ==== Proof.Pieces.lean ====
import proofs.«144256_j1529008357761_1_alg».proof.Proof.Gen.KernelIdeal.Frame
import Idealize.ShloMosaic.Lib.Pipeline.Value
import Idealize.ShloMosaic.Lib.Tactic

/-!
  What one grid point of the pooling kernel leaves behind, as values. The grid is 8 edge tiles by 4 vertex blocks, the
  vertex block moving fastest, so a row of four consecutive points works on one edge tile. The body keeps a scratch
  accumulator of the tile's shape:

    * at the first point of a row it stores zero into the accumulator, reads it back and adds the point's partial
      product to it;
    * at every later point it adds the point's partial product to what the point before left;
    * at the last point of a row it also stores, into the output block, the accumulator plus the tile's edge features.

  The partial product, the zero and the final sum are the three pure terms the body's stores carry
  (`k0_pay2`, `k0_pay1`, `k0_pay3`). Everything here holds for every float instance.
-/

noncomputable section

open Idealize.ShloMosaic Idealize.ShloMosaic.TcCoe Idealize.SL.Sem
open Idealize.ShloMosaic.Pipeline (Dat)

namespace Cert.KernelIdeal.Pool

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-! ## The three cases' stores, read back -/

/-- First point of a row: the accumulator ends at the zero block plus the partial product (the zero is stored first and
    covered by the second store, which read it back). -/
theorem scratch_first (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x256 .f32) (h4 : a4.IsWhole)
    (a5 : Memref sig .tc .vmem S2048x256 .f32) (h5 : a5.IsWhole) (a6 : Memref sig .tc .vmem S2048x256 .f32) (h6 : a6.IsWhole)
    (hc0 : cond0_0 i) (hc1 : ¬cond0_1 i) (x0 : Vec F S1024x2048 .f32) (x1 : Vec F S1024x256 .f32) (x2 : Vec F S2048x256 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S2048x256) origin, View.readCov_unit_zero (S := S2048x256) _ origin]
  simp only [View.readAt_eq_ld, h2.read_unread, h3.read_unread, View.ld_unit_zero (S := S1024x2048) origin,
    View.ld_unit_zero (S := S1024x256) origin, View.ld_unit_zero (S := S2048x256) origin]

/-- A middle point of a row: the accumulator ends at what it held plus the partial product. -/
theorem scratch_middle (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x256 .f32) (h4 : a4.IsWhole)
    (a5 : Memref sig .tc .vmem S2048x256 .f32) (h5 : a5.IsWhole) (a6 : Memref sig .tc .vmem S2048x256 .f32) (h6 : a6.IsWhole)
    (hc0 : ¬cond0_0 i) (hc1 : ¬cond0_1 i) (x0 : Vec F S1024x2048 .f32) (x1 : Vec F S1024x256 .f32) (x2 : Vec F S2048x256 .f32)
    (acc : Vec F S2048x256 .f32) :
    sout0_B_0 c i a2 h2 a3 h3 a4 h4 a5 h5 a6 h6 hc0 hc1 x0 x1 x2 acc = k0_pay2 x0 x1 acc := by
  unfold sout0_B_0
  rw [View.read_writes_eq_canon _ _ _ (scover0_B_0 c i a2 h2 a3 h3 a4 h4 a5 h5 a6 h6 hc0 hc1 x0 x1 x2 acc)]
  unfold kernelRun0_B
  dsimp only
  sl_unfold_words
  rw [View.canon_unit_zero origin]
  simp only [View.readAt_eq_ld, h2.read_unread, h3.read_unread, h6.read_unread, View.ld_unit_zero (S := S1024x2048) origin,
    View.ld_unit_zero (S := S1024x256) origin, View.ld_unit_zero (S := S2048x256) origin]

/-- The last point of a row does the same to the accumulator … -/
theorem scratch_last (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x256 .f32) (h4 : a4.IsWhole)
    (a5 : Memref sig .tc .vmem S2048x256 .f32) (h5 : a5.IsWhole) (a6 : Memref sig .tc .vmem S2048x256 .f32) (h6 : a6.IsWhole)
    (hc0 : ¬cond0_0 i) (hc1 : cond0_1 i) (x0 : Vec F S1024x2048 .f32) (x1 : Vec F S1024x256 .f32) (x2 : Vec F S2048x256 .f32)
    (acc : Vec F S2048x256 .f32) :
    sout0_C_0 c i a2 h2 a3 h3 a4 h4 a5 h5 a6 h6 hc0 hc1 x0 x1 x2 acc = k0_pay2 x0 x1 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero origin]
  simp only [View.readAt_eq_ld, h2.read_unread, h3.read_unread, h6.read_unread, View.ld_unit_zero (S := S1024x2048) origin,
    View.ld_unit_zero (S := S1024x256) origin, View.ld_unit_zero (S := S2048x256) origin]

/-- … and stores the accumulator it has just written, plus the edge-feature block, into the output block. -/
theorem output_last (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x256 .f32) (h4 : a4.IsWhole)
    (a5 : Memref sig .tc .vmem S2048x256 .f32) (h5 : a5.IsWhole) (a6 : Memref sig .tc .vmem S2048x256 .f32) (h6 : a6.IsWhole)
    (hc0 : ¬cond0_0 i) (hc1 : cond0_1 i) (x0 : Vec F S1024x2048 .f32) (x1 : Vec F S1024x256 .f32) (x2 : Vec F S2048x256 .f32)
    (acc : Vec F S2048x256 .f32) :
    out0_C_3 c i a2 h2 a3 h3 a4 h4 a5 h5 a6 h6 hc0 hc1 x0 x1 x2 acc = k0_pay3 (k0_pay2 x0 x1 acc) x2 := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero origin]
  simp only [View.readAt_eq_ld, h2.read_unread, h3.read_unread, h4.read_unread, h6.read_unread, View.ld_unit_zero (S := S1024x2048) origin,
    View.ld_unit_zero (S := S1024x256) origin, View.ld_unit_zero (S := S2048x256) origin, View.readCov_unit_zero (S := S2048x256) _ origin]

/-! ## The same, point by point along the run -/

variable (m : (ℓ : Loc nD τ sig) → Buf (Elt F) ℓ)

/-- After the first point of a row the accumulator is zero plus that point's partial product. -/
theorem acc_at_row_start (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After any later point of a row the accumulator is what the point before left plus this point's partial product. -/
theorem acc_at_later (c : Dev nD) (t : Fin cfg0.N) (h0 : ¬t.val % 4 = 0) :
    (outsAt0 m c t.val t.isLt).2 = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    dsimp only
    exact scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- After the last point of a row the output block is that accumulator plus the tile's edge features. -/
theorem out_at_row_end (c : Dev nD) (t : Fin cfg0.N) (h1 : t.val % 4 = 3) :
    (outsAt0 m c t.val t.isLt).1
      = k0_pay3 (k0_pay2 (iblk m c 0 t) (iblk m c 1 t) (outsAt0 m c (t.val - 1) (Nat.lt_of_le_of_lt (Nat.sub_le _ _) t.isLt)).2) (iblk m c 2 t) := by
  have h0 : ¬t.val % 4 = 0 := by omega
  rw [outsAt0_C m c t h0 h1]
  dsimp only
  exact output_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Cert.KernelIdeal.Pool

end
-- ==== Proof.PoolSpec.lean ====
import Idealize.ShloMosaic.PureOps.Ideal
import Idealize.ShloMosaic.Lib.ValueIdx
import Mathlib.Algebra.BigOperators.Group.Finset.Basic
import Mathlib.Data.Fintype.BigOperators

/-!
  Pooling vertex features onto edges. With 4096 vertices, 16384 edges and 256 features, an incidence array
  C[v, e], vertex features X[v, d] and edge features E[e, d], the pooled edge features are

      pooled[e, d] = E[e, d] + ∑ v < 4096, C[v, e] · X[v, d]

  over the extended reals. This module states that function once, and the one law the two programs differ by: the sum
  over the 4096 vertices is the sum of the four partial sums over the vertex blocks [1024·j, 1024·j + 1024). Addition of
  extended reals is commutative and associative (with ⊥ + ⊤ = ⊥ it is still a commutative monoid), so regrouping a
  finite sum needs no finiteness of the summands; no product is ever distributed over a sum.
-/

open scoped BigOperators

noncomputable section

namespace Cert.EdgePool

open Idealize.ShloMosaic Idealize.ShloMosaic.ValueIdx

/-- A sum over the first B·n naturals is the sum, over the B consecutive blocks of length n, of the block sums. -/
theorem sum_range_blocks {M : Type*} [AddCommMonoid M] (f : ℕ → M) (n : ℕ) :
    ∀ (B N : ℕ), N = B * n → ∑ v ∈ Finset.range N, f v = ∑ j ∈ Finset.range B, ∑ k ∈ Finset.range n, f (n * j + k)
  | 0, N, hN => by subst hN; simp
  | B + 1, N, hN => by
    subst hN
    rw [Nat.add_mul, Nat.one_mul, Finset.sum_range_add, Finset.sum_range_succ, sum_range_blocks f n B (B * n) rfl,
      Nat.mul_comm B n]

/-- A rank-2 array of extended reals read at natural-number coordinates: its entry where both are in range, zero
    elsewhere. Block sums are stated through it, so that a row number such as 1024·j + k needs no bound proof inside
    a sum. -/
def at2 {a b : ℕ} (A : (⟨2, ![a, b]⟩ : Shape).Idx → EReal) (r c : ℕ) : EReal :=
  if h : r < a ∧ c < b then A (ix2 ⟨r, h.1⟩ ⟨c, h.2⟩) else 0

/-- In range it is the entry. -/
theorem at2_ix2 {a b : ℕ} (A : (⟨2, ![a, b]⟩ : Shape).Idx → EReal) (p : Fin a) (q : Fin b) :
    at2 A p.val q.val = A (ix2 p q) := by
  unfold at2
  rw [dif_pos ⟨p.isLt, q.isLt⟩]

/-- The same with the coordinates given as naturals and their bounds beside them. -/
theorem at2_of_lt {a b : ℕ} (A : (⟨2, ![a, b]⟩ : Shape).Idx → EReal) (r c : ℕ) (hr : r < a) (hc : c < b) :
    at2 A r c = A (ix2 ⟨r, hr⟩ ⟨c, hc⟩) :=
  at2_ix2 A ⟨r, hr⟩ ⟨c, hc⟩

/-- The pooled edge features: each edge keeps its own features and adds the incidence-weighted sum of the vertex
    features. -/
def pooled (X : (⟨2, ![4096, 256]⟩ : Shape).Idx → EReal) (E : (⟨2, ![16384, 256]⟩ : Shape).Idx → EReal)
    (C : (⟨2, ![4096, 16384]⟩ : Shape).Idx → EReal) : (⟨2, ![16384, 256]⟩ : Shape).Idx → EReal :=
  fun i => E i + ∑ v : Fin 4096, C (ix2 v (i 0)) * X (ix2 v (i 1))

theorem pooled_apply (X : (⟨2, ![4096, 256]⟩ : Shape).Idx → EReal) (E : (⟨2, ![16384, 256]⟩ : Shape).Idx → EReal)
    (C : (⟨2, ![4096, 16384]⟩ : Shape).Idx → EReal) (r : Fin 16384) (q : Fin 256) :
    pooled X E C (ix2 r q) = E (ix2 r q) + ∑ v : Fin 4096, C (ix2 v r) * X (ix2 v q) := rfl

/-- Vertex block j's contribution to edge r and feature q: the products over the 1024 vertices of that block. -/
def blockTerm (X : (⟨2, ![4096, 256]⟩ : Shape).Idx → EReal) (C : (⟨2, ![4096, 16384]⟩ : Shape).Idx → EReal)
    (r q j : ℕ) : EReal :=
  ∑ k ∈ Finset.range 1024, at2 C (1024 * j + k) r * at2 X (1024 * j + k) q

/-- The pooled features are the four block contributions added up, then the edge's own feature: the order in which a
    program that walks the vertex blocks one after the other produces them. -/
theorem pooled_eq_blocks (X : (⟨2, ![4096, 256]⟩ : Shape).Idx → EReal) (E : (⟨2, ![16384, 256]⟩ : Shape).Idx → EReal)
    (C : (⟨2, ![4096, 16384]⟩ : Shape).Idx → EReal) (r : Fin 16384) (q : Fin 256) :
    pooled X E C (ix2 r q) = (∑ j ∈ Finset.range 4, blockTerm X C r.val q.val j) + E (ix2 r q) := by
  have hsum : (∑ v : Fin 4096, C (ix2 v r) * X (ix2 v q)) = ∑ j ∈ Finset.range 4, blockTerm X C r.val q.val j := by
    have h1 : (∑ v : Fin 4096, C (ix2 v r) * X (ix2 v q))
        = ∑ v : Fin 4096, at2 C v.val r.val * at2 X v.val q.val :=
      Finset.sum_congr rfl fun v _ => by rw [at2_ix2, at2_ix2]
    rw [h1, Fin.sum_univ_eq_sum_range (fun v => at2 C v r.val * at2 X v q.val) 4096,
      sum_range_blocks (fun v => at2 C v r.val * at2 X v q.val) 1024 4 4096 rfl]
    rfl
  rw [pooled_apply, hsum, add_comm]

end Cert.EdgePool

end
-- ==== Proof.LibDotAxis0.lean ====
import Idealize.ShloMosaic.PureOps.Ideal.Laws
import Idealize.ShloMosaic.Lib.ValueIdx
import Idealize.ShloMosaic.PureOps.Dims

/-!
  A matrix product whose two operands are BOTH contracted along their axis 0: the left operand has shape [K, M], the
  right operand has shape [K, N], there is no batch axis, and the result has shape [M, N]. Entry (p, q) of the result
  is the sum over k < K of l(k, p) · r(k, q): the transpose of the left operand times the right operand, without the
  transpose ever being formed. The dimension record is a variable and its six axis lists are hypotheses, so the lemmas
  hold for every record of this shape, whatever the three extents are.

  At the ideal values both ways of computing such a product — the vector unit's product accumulated into a zero splat,
  and the host's general dot product — are that plain sum over the extended reals.
-/

open scoped BigOperators

namespace Cert.Lib.DotAxis0

open Idealize.ShloMosaic Idealize.ShloMosaic.ValueIdx

variable {K M N : Nat} (d : DotDims ⟨2, ![K, M]⟩ ⟨2, ![K, N]⟩ ⟨2, ![M, N]⟩)

/-- One contracted axis: the contraction's own index shape has a single axis. -/
theorem contr_rank (hlc : d.lhsContracting = [0]) : d.contr.rank = 1 := by
  rw [d.rank_contr, hlc]; rfl

/-- That single axis has the extent K of the left operand's axis 0. -/
theorem contr_size (hlc : d.lhsContracting = [0]) :
    d.contr.size ⟨0, by rw [contr_rank d hlc]; exact Nat.one_pos⟩ = K := by
  have hlen : 0 < d.lhsContracting.length := by rw [hlc]; exact Nat.one_pos
  rw [d.size_contr 0 hlen]
  have hax : d.lhsContracting[0] = 0 := by simp [hlc]
  rw [hax]; rfl

/-- The left operand's free axis is its axis 1, and it is the result's axis 0: at result index j the left operand is
    read in column j₀. -/
theorem lhs_col (hln : d.lhsNonContracting = [1]) (hlb : d.lhsBatch = [])
    (j : (⟨2, ![M, N]⟩ : Shape).Idx) (k : d.contr.Idx) : (d.lhsIdx j k 1).val = (j 0).val := by
  have hnb : (1 : Fin (⟨2, ![K, M]⟩ : Shape).rank) ∉ d.lhsBatch := by rw [hlb]; exact List.not_mem_nil
  have hfree : (1 : Fin (⟨2, ![K, M]⟩ : Shape).rank) ∈ d.lhsNonContracting := by
    rw [hln]; exact List.mem_singleton.mpr rfl
  unfold DotDims.lhsIdx
  rw [dif_neg hnb, dif_pos hfree]
  simp only [Fin.val_cast]
  have at_pos : ∀ (n : Nat) (h : n < (⟨2, ![M, N]⟩ : Shape).rank), n = 0 → (j ⟨n, h⟩).val = (j 0).val :=
    fun n h e => by subst e; rfl
  exact at_pos _ _ (by simp [hlb, hln])

/-- The right operand's free axis is its axis 1, and it is the result's axis 1: at result index j the right operand is
    read in column j₁. -/
theorem rhs_col (hln : d.lhsNonContracting = [1]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hnb : (1 : Fin (⟨2, ![K, N]⟩ : Shape).rank) ∉ d.rhsBatch := by rw [hrb]; exact List.not_mem_nil
  have hfree : (1 : Fin (⟨2, ![K, N]⟩ : Shape).rank) ∈ d.rhsNonContracting := by
    rw [hrn]; exact List.mem_singleton.mpr rfl
  unfold DotDims.rhsIdx
  rw [dif_neg hnb, dif_pos hfree]
  simp only [Fin.val_cast]
  have at_pos : ∀ (n : Nat) (h : n < (⟨2, ![M, N]⟩ : Shape).rank), n = 1 → (j ⟨n, h⟩).val = (j 1).val :=
    fun n h e => by subst e; rfl
  exact at_pos _ _ (by simp [hlb, hln, hrn])

/-- The contraction sum at entry (p, q), re-indexed by the one contraction coordinate k < K: both operands are read in
    row k, the left one in column p and the right one in column q. -/
theorem contr_sum (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 k p) * r (ix2 k q) := by
  have hr : d.contr.rank = 1 := contr_rank d hlc
  have hs : d.contr.size ⟨0, by omega⟩ = K := contr_size d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 i p := by
    funext a
    match a with
    | ⟨0, _⟩ => exact Fin.ext ((d.lhsIdx_val_of_single hlc _ _).trans (contrEquiv1_symm_val d K hr hs i))
    | ⟨1, _⟩ => exact Fin.ext (lhs_col d hln hlb _ _)
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhs_col d hln hrn hlb hrb _ _)
  show l _ * r _ = _
  rw [hL, hR]

/-- The vector unit's product accumulated into the zero splat, read at entry (p, q) at the ideal values: the sum over
    k < K of l(k, p) · r(k, q). -/
theorem matmul_zero_apply {φ₁ φ₂ : FTy} (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (l : FVec Ideal ⟨2, ![K, M]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 k p) * r (ix2 k q) :=
  (Ideal.matmul_constant_zero_apply d prec l r (ix2 p q)).trans (contr_sum d hlc hrc hln hrn hlb hrb l r p q)

/-- The host's general dot product of the same shape, read at entry (p, q) at the ideal values: the same sum, whatever
    the schedule. -/
theorem dotGeneral_apply {φ₁ φ₂ : FTy} (hlc : d.lhsContracting = [0]) (hrc : d.rhsContracting = [0])
    (hln : d.lhsNonContracting = [1]) (hrn : d.rhsNonContracting = [1])
    (hlb : d.lhsBatch = []) (hrb : d.rhsBatch = []) (prec : Option ContractPrecision) (sched : HostSchedule)
    (l : FVec Ideal ⟨2, ![K, M]⟩ φ₁) (r : FVec Ideal ⟨2, ![K, N]⟩ φ₂) (p : Fin M) (q : Fin N) :
    FloatOps.dotGeneral d prec sched l r (ix2 p q) = ∑ k : Fin K, l (ix2 k p) * r (ix2 k q) :=
  (Ideal.dotGeneral_apply d prec sched l r (ix2 p q)).trans (contr_sum d hlc hrc hln hrn hlb hrb l r p q)

end Cert.Lib.DotAxis0
-- ==== Proof.Accum.lean ====
import proofs.«144256_j1529008357761_1_alg».proof.Proof.Pieces
import proofs.«144256_j1529008357761_1_alg».proof.Proof.PoolSpec
import proofs.«144256_j1529008357761_1_alg».proof.Proof.LibDotAxis0
import Idealize.ShloMosaic.Lib.ValueIdx
import Idealize.ShloMosaic.Lib.Pipeline.Value
import Idealize.ShloMosaic.PureOps.Ideal.Laws

/-!
  The pooling kernel's accumulator, at the ideal values. Grid point t works on edge tile t / 4 (edges
  2048·(t/4) … 2048·(t/4) + 2047) and vertex block t % 4 (vertices 1024·(t%4) … 1024·(t%4) + 1023). Its partial
  product, at entry (p, q) of the tile, is the sum over the block's 1024 vertices v of C[v, edge] · X[v, q]: the
  block's contribution to that edge and feature. Along a row of four points the accumulator collects the
  contributions of vertex blocks 0, 1, 2, 3 in this order, starting from zero; the row's last point adds the edge's
  own feature and that is what the output block receives: the pooled feature, its vertex sum cut into four blocks.
-/

noncomputable section

open Idealize.ShloMosaic Idealize.ShloMosaic.TcCoe Idealize.SL.Sem Idealize.ShloMosaic.ValueIdx
open Idealize.ShloMosaic.Pipeline (Dat)
open scoped BigOperators

namespace Cert.KernelIdeal.Pool

open Cert.KernelIdeal Cert.KernelIdeal.Gen Cert.EdgePool

/-! ## The body's three terms, read at an index -/

/-- The block the first point of a row resets the accumulator to is zero everywhere. -/
theorem zero_block_apply (i : S2048x256.Idx) : ((k0_pay1 (F := Ideal)) i : EReal) = 0 := by
  unfold k0_pay1
  refine (congrFun (shapeCast_self _ shapeCasts_S2048x256_S2048x256) i).trans ?_
  exact Ideal.ofBits_zero_f32

/-- The accumulation step at entry (p, q): the accumulator there plus the sum, over the rows k of the two loaded
    blocks, of the incidence block's (k, p) times the vertex block's (k, q). The two narrowing casts in front of the
    product are the identity on extended reals, and the product starts from a zero splat. -/
theorem accum_apply (x0 : Vec Ideal S1024x2048 .f32) (x1 : Vec Ideal S1024x256 .f32) (acc : Vec Ideal S2048x256 .f32)
    (p : Fin 2048) (q : Fin 256) :
    (k0_pay2 x0 x1 acc (ix2 p q) : EReal)
      = (acc (ix2 p q) : EReal) + ∑ k : Fin 1024, (x0 (ix2 k p) : EReal) * (x1 (ix2 k q) : EReal) := by
  unfold k0_pay2
  refine (congrFun (shapeCast_self _ shapeCasts_S2048x256_S2048x256) (ix2 p q)).trans ?_
  show (acc (ix2 p q) : EReal) + (FloatOps.matmul (F := Ideal) dot_S1024x2048_S1024x256_S2048x256_0_0_1_1_n_n none
      (truncf (F := Ideal) .bf16 x0 bitsLt_bf16_f32) (truncf (F := Ideal) .bf16 x1 bitsLt_bf16_f32)
      (constant (F := Ideal) S2048x256 .f32 0x00000000#32) (ix2 p q) : EReal) = _
  exact congrArg (fun s : EReal => (acc (ix2 p q) : EReal) + s)
    (Cert.Lib.DotAxis0.matmul_zero_apply dot_S1024x2048_S1024x256_S2048x256_0_0_1_1_n_n rfl rfl rfl rfl rfl rfl none
      (truncf (F := Ideal) .bf16 x0 bitsLt_bf16_f32) (truncf (F := Ideal) .bf16 x1 bitsLt_bf16_f32) p q)

/-- The row's last store at an index: the accumulator there plus the edge-feature block there. -/
theorem final_sum_apply (a b : Vec Ideal S2048x256 .f32) (i : S2048x256.Idx) :
    (k0_pay3 a b i : EReal) = (a i : EReal) + (b i : EReal) := rfl

/-! ## The three input blocks, read through their windows -/

variable (m : (ℓ : Loc nD τ sig) → Buf (Elt Ideal) ℓ)

/-- The three arrays the kernel reads, as the region finds them: the incidence array, the vertex features and the
    edge features. -/
abbrev incidence (c : Dev nD) : Vec Ideal S4096x16384 .f32 := V m c main_arg4
abbrev vertices (c : Dev nD) : Vec Ideal S4096x256 .f32 := V m c main_arg0
abbrev edgeFeat (c : Dev nD) : Vec Ideal S16384x256 .f32 := V m c main_arg1

/-- The three blocks the body loads at grid point t, under their literal shapes. -/
abbrev incBlk (c : Dev nD) (t : Fin cfg0.N) : Vec Ideal S1024x2048 .f32 := iblk m c 0 t
abbrev vtxBlk (c : Dev nD) (t : Fin cfg0.N) : Vec Ideal S1024x256 .f32 := iblk m c 1 t
abbrev edgBlk (c : Dev nD) (t : Fin cfg0.N) : Vec Ideal S2048x256 .f32 := iblk m c 2 t

/-- Where each window's block sits at grid point t, decided once over the 32 points: the incidence window at block
    (t % 4, t / 4), the vertex window at (t % 4, 0), the edge-feature and output windows at (t / 4, 0). -/
theorem grid_index : ∀ t : Fin cfg0.N,
    win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- Row k, column p of the incidence block at point t is the incidence array at vertex 1024·(t%4) + k and edge
    2048·(t/4) + p. -/
theorem incidence_block (c : Dev nD) (t : Fin cfg0.N) (k : Fin 1024) (p : Fin 2048) :
    (incBlk m c t (ix2 k p) : EReal)
      = at2 (incidence m c) (1024 * (t.val % 4) + k.val) (2048 * (t.val / 4) + p.val) := by
  have hN : t.val < 32 := lt_of_lt_of_eq t.isLt (show cfg0.N = 32 from N_0)
  have hk := k.isLt
  have hp := p.isLt
  obtain ⟨e0, e1, -⟩ := grid_index t
  have hr : 1024 * (t.val % 4) + k.val < 4096 := by omega
  have hc : 2048 * (t.val / 4) + p.val < 16384 := by omega
  refine Eq.trans ?_ (at2_of_lt (incidence m c) _ _ hr hc).symm
  unfold incBlk iblk
  rw [View.read_apply]
  show V m c main_arg4 _ = V m c main_arg4 _
  congr 1
  funext a
  apply Fin.ext
  match a with
  | ⟨0, _⟩ => show win0_0.index t (0 : Fin 2) * 1024 + 1 * k.val = 1024 * (t.val % 4) + k.val; omega
  | ⟨1, _⟩ => show win0_0.index t (1 : Fin 2) * 2048 + 1 * p.val = 2048 * (t.val / 4) + p.val; omega

/-- Row k, column q of the vertex block at point t is the vertex features at vertex 1024·(t%4) + k and feature q. -/
theorem vertex_block (c : Dev nD) (t : Fin cfg0.N) (k : Fin 1024) (q : Fin 256) :
    (vtxBlk m c t (ix2 k q) : EReal)
      = at2 (vertices m c) (1024 * (t.val % 4) + k.val) q.val := by
  have hN : t.val < 32 := lt_of_lt_of_eq t.isLt (show cfg0.N = 32 from N_0)
  have hk := k.isLt
  have hq := q.isLt
  obtain ⟨-, -, e0, e1, -⟩ := grid_index t
  have hr : 1024 * (t.val % 4) + k.val < 4096 := by omega
  refine Eq.trans ?_ (at2_of_lt (vertices m c) _ _ hr hq).symm
  unfold vtxBlk iblk
  rw [View.read_apply]
  show V m c main_arg0 _ = V m c main_arg0 _
  congr 1
  funext a
  apply Fin.ext
  match a with
  | ⟨0, _⟩ => show win0_1.index t (0 : Fin 2) * 1024 + 1 * k.val = 1024 * (t.val % 4) + k.val; omega
  | ⟨1, _⟩ => show win0_1.index t (1 : Fin 2) * 256 + 1 * q.val = q.val; omega

/-- Row p, column q of the edge-feature block at point t is the edge features at edge 2048·(t/4) + p, feature q. -/
theorem edge_block (c : Dev nD) (t : Fin cfg0.N) (p : Fin 2048) (q : Fin 256)
    (hr : 2048 * (t.val / 4) + p.val < 16384) :
    (edgBlk m c t (ix2 p q) : EReal)
      = (edgeFeat m c (ix2 ⟨2048 * (t.val / 4) + p.val, hr⟩ q) : EReal) := by
  have hp := p.isLt
  have hq := q.isLt
  obtain ⟨-, -, -, -, e0, e1, -⟩ := grid_index t
  unfold edgBlk iblk
  rw [View.read_apply]
  show V m c main_arg1 _ = V m c main_arg1 _
  congr 1
  funext a
  apply Fin.ext
  match a with
  | ⟨0, _⟩ => show win0_2.index t (0 : Fin 2) * 2048 + 1 * p.val = 2048 * (t.val / 4) + p.val; omega
  | ⟨1, _⟩ => show win0_2.index t (1 : Fin 2) * 256 + 1 * q.val = q.val; omega

/-- The partial product of point t at entry (p, q) is vertex block t % 4's contribution to edge 2048·(t/4) + p and
    feature q. -/
theorem block_product (c : Dev nD) (t : Fin cfg0.N) (p : Fin 2048) (q : Fin 256) :
    (∑ k : Fin 1024, (incBlk m c t (ix2 k p) : EReal) * (vtxBlk m c t (ix2 k q) : EReal))
      = blockTerm (vertices m c) (incidence m c) (2048 * (t.val / 4) + p.val) q.val (t.val % 4) := by
  unfold blockTerm
  rw [← Fin.sum_univ_eq_sum_range (fun k => at2 (incidence m c) (1024 * (t.val % 4) + k) (2048 * (t.val / 4) + p.val)
    * at2 (vertices m c) (1024 * (t.val % 4) + k) q.val) 1024]
  exact Finset.sum_congr rfl fun k _ => congrArg₂ (fun a b : EReal => a * b) (incidence_block m c t k p) (vertex_block m c t k q)

/-! ## Along a row of four points -/

/-- After the point at position j of the row of edge tile e, the accumulator holds, at entry (p, q), the
    contributions of vertex blocks 0 … j to edge 2048·e + p and feature q — by induction along the row. -/
theorem acc_row (c : Dev nD) : ∀ (j : ℕ) (t : Fin cfg0.N) (e : ℕ), j < 4 → t.val = 4 * e + j →
    ∀ (p : Fin 2048) (q : Fin 256),
      ((outsAt0 m c t.val t.isLt).2 (ix2 p q) : EReal)
        = ∑ j' ∈ Finset.range (j + 1), blockTerm (vertices m c) (incidence m c) (2048 * e + p.val) q.val j'
  | 0, t, e, _, ht, p, q => by
    have h0 : t.val % 4 = 0 := by omega
    have hd : t.val / 4 = e := by omega
    refine (congrFun (acc_at_row_start m c t h0) (ix2 p q)).trans ?_
    refine (accum_apply (incBlk m c t) (vtxBlk m c t) (k0_pay1 (F := Ideal)) p q).trans ?_
    rw [zero_block_apply, zero_add, Finset.sum_range_one]
    refine (block_product m c t p q).trans ?_
    rw [hd, h0]
  | j + 1, t, e, hj, ht, p, q => by
    have h0 : ¬t.val % 4 = 0 := by omega
    have hd : t.val / 4 = e := by omega
    have hm : t.val % 4 = j + 1 := by omega
    have hlt : t.val - 1 < cfg0.N := Nat.lt_of_le_of_lt (Nat.sub_le _ _) t.isLt
    have ih := acc_row c j ⟨t.val - 1, hlt⟩ e (by omega) (by show t.val - 1 = 4 * e + j; omega) p q
    refine (congrFun (acc_at_later m c t h0) (ix2 p q)).trans ?_
    refine (accum_apply (incBlk m c t) (vtxBlk m c t) (outsAt0 m c (t.val - 1) hlt).2 p q).trans ?_
    rw [Finset.sum_range_succ]
    refine congrArg₂ (fun a b : EReal => a + b) ih ((block_product m c t p q).trans ?_)
    rw [hd, hm]

/-- What the last point of a row leaves in the output block, at entry (p, q): the pooled feature of edge
    2048·(t/4) + p — the four block contributions, then the edge's own feature. -/
theorem out_block_apply (c : Dev nD) (t : Fin cfg0.N) (h1 : t.val % 4 = 3) (p : Fin 2048) (q : Fin 256)
    (hr : 2048 * (t.val / 4) + p.val < 16384) :
    ((outsAt0 m c t.val t.isLt).1 (ix2 p q) : EReal)
      = pooled (vertices m c) (edgeFeat m c) (incidence m c) (ix2 ⟨2048 * (t.val / 4) + p.val, hr⟩ q) := by
  have h0 : ¬t.val % 4 = 0 := by omega
  have hlt : t.val - 1 < cfg0.N := Nat.lt_of_le_of_lt (Nat.sub_le _ _) t.isLt
  have hacc : (k0_pay2 (incBlk m c t) (vtxBlk m c t) (outsAt0 m c (t.val - 1) hlt).2 (ix2 p q) : EReal)
      = ∑ j' ∈ Finset.range (3 + 1), blockTerm (vertices m c) (incidence m c) (2048 * (t.val / 4) + p.val) q.val j' :=
    (congrFun (acc_at_later m c t h0) (ix2 p q)).symm.trans (acc_row m c 3 t (t.val / 4) (by omega) (by omega) p q)
  refine (congrFun (out_at_row_end m c t h1) (ix2 p q)).trans ?_
  refine (final_sum_apply (k0_pay2 (incBlk m c t) (vtxBlk m c t) (outsAt0 m c (t.val - 1) hlt).2) (edgBlk m c t) (ix2 p q)).trans ?_
  rw [pooled_eq_blocks]
  exact congrArg₂ (fun a b : EReal => a + b) hacc (edge_block m c t p q hr)

end Cert.KernelIdeal.Pool

end
-- ==== Proof.KernelValue.lean ====
import proofs.«144256_j1529008357761_1_alg».proof.Proof.Accum
import proofs.«144256_j1529008357761_1_alg».proof.Proof.Gen.KernelIdeal.Value

/-!
  From the output blocks to the output array. Only the last point of each row of four writes its output block back,
  and the eight blocks written back — edge tiles 0 … 7, each 2048 edges by all 256 features — tile the
  [16384, 256] result. Each written block is the pooled features restricted to its tile, so the array the kernel
  leaves is the pooled features of its three arguments.
-/

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen Cert.EdgePool

variable (m : (ℓ : Loc nD τ sig) → Buf (Elt Ideal) ℓ) (ρ : Dev nD → PrngReg)

/-- What a writing point writes back is its tile of the pooled features: entry (p, q) of the block written at point t
    is the pooled feature of edge 2048·(t/4) + p, and that is where the block sits in the array. -/
theorem written_block (c : Dev nD) (t : Fin cfg0.N) (hf : (cfg0.win 3).flush t = true) :
    (dats m 0 c).flushed 3 t
      = ((cfg0.win 3).blk t).view.read (Elt Ideal) (pooled (vertices m c) (edgeFeat m c) (incidence m c)) := by
  have h1 : t.val % 4 = 3 := (flush0_3 t).mp hf
  have hN : t.val < 32 := lt_of_lt_of_eq t.isLt (show cfg0.N = 32 from N_0)
  obtain ⟨-, -, -, -, -, -, e0, e1⟩ := grid_index t
  rw [Cert.KernelIdeal.Value.flushed3]
  funext y
  obtain ⟨p, q, rfl⟩ : ∃ (p : Fin 2048) (q : Fin 256), y = ix2 p q := ⟨y 0, y 1, eq_ix2 y⟩
  have hp := p.isLt
  have hq := q.isLt
  have hr : 2048 * (t.val / 4) + p.val < 16384 := by omega
  show (outsAt0 m c t.val t.isLt).1 (ix2 p q)
    = pooled (vertices m c) (edgeFeat m c) (incidence m c) (((cfg0.win 3).blk t).view.emb (ix2 p q))
  refine (out_block_apply m c t h1 p q hr).trans ?_
  congr 1
  funext a
  apply Fin.ext
  match a with
  | ⟨0, _⟩ => show 2048 * (t.val / 4) + p.val = win0_3.index t (0 : Fin 2) * 2048 + 1 * p.val; omega
  | ⟨1, _⟩ => show q.val = win0_3.index t (1 : Fin 2) * 256 + 1 * q.val; omega

/-- An index of the result lies in point t's block when each coordinate lies in the block's range on its axis. -/
theorem in_block_iff (t : Fin cfg0.N) (i : S16384x256.Idx) :
    i ∈ ((cfg0.win 3).blk t).view.set
      ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- Every index of the result is in the block some writing point writes: edge r belongs to tile r / 2048, whose row ends
    at point 4·(r / 2048) + 3. -/
theorem tiles_cover (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hlt : 4 * ((i 0).val / 2048) + 3 < cfg0.N := by rw [show cfg0.N = 32 from N_0]; omega
  obtain ⟨t, ht⟩ : ∃ t : Fin cfg0.N, t.val = 4 * ((i 0).val / 2048) + 3 := ⟨⟨_, hlt⟩, rfl⟩
  obtain ⟨-, -, -, -, -, -, e0, e1⟩ := grid_index t
  refine ⟨t, (flush0_3 t).mpr (by omega), ?_⟩
  rw [in_block_iff]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- The result array after the run is the pooled features of the three argument arrays. -/
theorem result_array (c : Dev nD) :
    (dats m 0 c).arrAt 3 cfg0.N = pooled (vertices m c) (edgeFeat m c) (incidence m c) :=
  (dats m 0 c).arrAt_eq_of_cover 3 (pooled (vertices m c) (edgeFeat m c) (incidence m c))
    (fun t hf => written_block m c t hf) tiles_cover

/-- The kernel's run: every weakly fair execution ends with the result at the pooled features of the arguments as
    launched, and the five arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩)
    (Cert.KernelIdeal.Value.run_blocks m ρ)

end Cert.KernelIdeal.Pool

end
-- ==== Proof.RefPool.lean ====
import proofs.«144256_j1529008357761_1_alg».proof.Proof.Gen.ReferenceIdeal.Read
import proofs.«144256_j1529008357761_1_alg».proof.Proof.PoolSpec

/-!
  The reference computes the pooled edge features directly: one general dot product of the incidence array with the
  vertex features, both contracted along the vertex axis, then the edge features added in front. Read at an index it is
  the specification's own expression, E[e, d] + ∑ v, C[v, e] · X[v, d], term for term.
-/

noncomputable section

namespace Cert.ReferenceIdeal.Pool

open Cert.ReferenceIdeal Cert.ReferenceIdeal.Read Idealize.ShloMosaic Idealize.ShloMosaic.ValueIdx Cert.EdgePool

/-- The incidence array is read at (vertex k, edge i₀) … -/
theorem incidence_index (i : S16384x256.Idx) (k : Fin 4096) : lidx_main_v0 i k = ix2 k (i 0) :=
  funext fun a => by match a with | ⟨0, _⟩ => rfl | ⟨1, _⟩ => rfl

/-- … and the vertex features at (vertex k, feature i₁). -/
theorem vertex_index (i : S16384x256.Idx) (k : Fin 4096) : ridx_main_v0 i k = ix2 k (i 1) :=
  funext fun a => by match a with | ⟨0, _⟩ => rfl | ⟨1, _⟩ => rfl

/-- The reference's result, as a function of its three live arguments, is the pooled edge features. -/
theorem result_is_pooled (x0 : (⟨S4096x256, .f32⟩ : BufTy).Contents (Elt Ideal))
    (x1 : (⟨S16384x256, .f32⟩ : BufTy).Contents (Elt Ideal)) (x4 : (⟨S4096x16384, .f32⟩ : BufTy).Contents (Elt Ideal)) :
    val_main_v1 (F := Ideal) x0 x1 x4 = pooled x0 x1 x4 := by
  funext i
  rw [val_main_v1_apply, val_main_v0_apply]
  simp only [incidence_index, vertex_index]
  rfl

end Cert.ReferenceIdeal.Pool

end
-- ==== Proof.lean ====
/-
  Pooling vertex features onto edges: with an incidence array C[v, e], vertex features X[v, d] and edge features
  E[e, d] (4096 vertices, 16384 edges, 256 features; two further arguments are passed and never read), both programs
  return

      out[e, d] = E[e, d] + ∑ v < 4096, C[v, e] · X[v, d].

  The reference forms the whole sum in one general dot product, contracting the vertex axis of both operands, and adds
  the edge features in front. The kernel walks a grid of 8 edge tiles (2048 edges each) by 4 vertex blocks (1024
  vertices each): along a row of the grid it accumulates, in a scratch block that starts at zero, the four partial
  products of the incidence block's transpose with the vertex block (its narrowing of both operands to a shorter
  float format before the product is the identity on extended reals), and at the row's last point adds the tile's
  edge features and writes the tile out. So the kernel computes ((((0 + P₀) + P₁) + P₂) + P₃) + E where the reference
  computes E + (the sum over all 4096 vertices): the same extended real, because the sum over the vertices is the sum of
  the four block sums and addition of extended reals is commutative and associative. No product is distributed over a
  sum and nothing is cancelled, so the inputs' finiteness is never used.

  The frames of the two kernel programs are their generated frame theorems; the reference's frame is its generated
  run with the result forgotten; the idealization rewrote nothing, so there is nothing to preserve.
-/
import proofs.«144256_j1529008357761_1_alg».proof.Defs
import proofs.«144256_j1529008357761_1_alg».proof.Proof.Gen.Kernel
import proofs.«144256_j1529008357761_1_alg».proof.Proof.Gen.Kernel.Skeleton
import proofs.«144256_j1529008357761_1_alg».proof.Proof.Gen.Kernel.Launch
import proofs.«144256_j1529008357761_1_alg».proof.Proof.Gen.Kernel.Points
import proofs.«144256_j1529008357761_1_alg».proof.Proof.Gen.Kernel.Frame
import proofs.«144256_j1529008357761_1_alg».proof.Proof.Gen.KernelIdeal
import proofs.«144256_j1529008357761_1_alg».proof.Proof.Gen.KernelIdeal.Skeleton
import proofs.«144256_j1529008357761_1_alg».proof.Proof.Gen.KernelIdeal.Launch
import proofs.«144256_j1529008357761_1_alg».proof.Proof.Gen.KernelIdeal.Points
import proofs.«144256_j1529008357761_1_alg».proof.Proof.Gen.KernelIdeal.Frame
import proofs.«144256_j1529008357761_1_alg».proof.Proof.Gen.ReferenceIdeal
import proofs.«144256_j1529008357761_1_alg».proof.Proof.Gen.Pre_finite_inputs
import proofs.«144256_j1529008357761_1_alg».proof.Proof.Gen.KernelIdeal.Value
import proofs.«144256_j1529008357761_1_alg».proof.Proof.Gen.ReferenceIdeal.Run
import proofs.«144256_j1529008357761_1_alg».proof.Proof.Gen.ReferenceIdeal.Read
import proofs.«144256_j1529008357761_1_alg».proof.Proof.KernelValue
import proofs.«144256_j1529008357761_1_alg».proof.Proof.RefPool
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is two host operations; its run, with what it says about the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- Both programs end with the pooled edge features of the same three arrays: the kernel by accumulating the four
    vertex blocks' contributions tile by tile, the reference by one dot product over all vertices. -/
theorem algebraic : Cert.algebraic_KernelIdeal_ReferenceIdeal := by
  intro m ρ m' ρ' _ hagree
  refine ⟨fun c => Cert.EdgePool.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4)),
    Cert.KernelIdeal.Pool.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.Pool.result_is_pooled,
    (hagree c).1, (hagree c).2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
